-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S64x64 : Shape := ⟨2, ![64, 64]⟩
abbrev S64 : Shape := ⟨1, ![64]⟩
abbrev S200000x12 : Shape := ⟨2, ![200000, 12]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S200000x32 .f32) (main_arg1 : FVec F S64x64 .f32) (main_arg2 : FVec F S64 .f32) (main_arg3 : FVec F S64 .f32) (main_arg4 : FVec F S64 .f32) (main_arg5 : IVec S200000x12 32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S200000x32 : Shape := ⟨2, ![200000, 32]⟩
abbrev S64x64 : Shape := ⟨2, ![64, 64]⟩
abbrev S64 : Shape := ⟨1, ![64]⟩
abbrev S200000x12 : Shape := ⟨2, ![200000, 12]⟩
abbrev S_ : Shape := ⟨0, ![]⟩
abbrev S200000x12x1 : Shape := ⟨3, ![200000, 12, 1]⟩
abbrev S200000x12x32 : Shape := ⟨3, ![200000, 12, 32]⟩
abbrev S200000x6x64 : Shape := ⟨3, ![200000, 6, 64]⟩
abbrev S1x64 : Shape := ⟨2, ![1, 64]⟩
abbrev S200000x64 : Shape := ⟨2, ![200000, 64]⟩
abbrev S2000x6x64 : Shape := ⟨3, ![2000, 6, 64]⟩
abbrev S2000x64 : Shape := ⟨2, ![2000, 64]⟩
abbrev S12000x64 : Shape := ⟨2, ![12000, 64]⟩
abbrev S1x1x64 : Shape := ⟨3, ![1, 1, 64]⟩
abbrev S2000x1x64 : Shape := ⟨3, ![2000, 1, 64]⟩

abbrev nBuf : Space → Nat
  | .hbm => 20
  | .vmem => 8
  | .smem => 0
  | _ => 0

abbrev bufTy : (tb : Table) → Fin (tcTables nBuf tb) → BufTy
  | .hbm, ⟨0, _⟩ => ⟨S200000x32, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S200000x12, .i32⟩
  | .hbm, ⟨6, _⟩ => ⟨S_, .i32⟩
  | .hbm, ⟨7, _⟩ => ⟨S200000x12, .i32⟩
  | .hbm, ⟨8, _⟩ => ⟨S200000x12, .i1⟩
  | .hbm, ⟨9, _⟩ => ⟨S_, .i32⟩
  | .hbm, ⟨10, _⟩ => ⟨S200000x12, .i32⟩
  | .hbm, ⟨11, _⟩ => ⟨S200000x12, .i32⟩
  | .hbm, ⟨12, _⟩ => ⟨S200000x12, .i32⟩
  | .hbm, ⟨13, _⟩ => ⟨S200000x12x1, .i32⟩
  | .hbm, ⟨14, _⟩ => ⟨S200000x12x32, .f32⟩
  | .hbm, ⟨15, _⟩ => ⟨S200000x6x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S200000x64, .f32⟩
  | .local _ .vmem, ⟨0, _⟩ => ⟨S2000x6x64, .f32⟩
  | .local _ .vmem, ⟨1, _⟩ => ⟨S2000x6x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x6x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S200000x12 : S_.BroadcastsInDim S200000x12 (![] : Fin 0 → Fin S200000x12.rank)
  bcast_S200000x12_S200000x12x1_0_1 : S200000x12.BroadcastsInDim S200000x12x1 (![0, 1] : Fin 2 → Fin S200000x12x1.rank)
  shapeCasts_S200000x12x32_S200000x6x64 : S200000x12x32.ShapeCasts S200000x6x64
  shapeCasts_S64_S1x64 : S64.ShapeCasts S1x64
  inb_S2000x6x64_S2000x6x64_0_0_0 : ∀ a, (![0, 0, 0] : Fin 3 → Nat) a + S2000x6x64.size a ≤ S2000x6x64.size a
  h_S2000x6x64 : 0 < S2000x6x64.numel
  shapeCasts_S2000x6x64_S2000x6x64 : S2000x6x64.ShapeCasts S2000x6x64
  bitsLt_bf16_f32 : FTy.bits .bf16 < FTy.bits .f32
  shapeCasts_S2000x6x64_S12000x64 : S2000x6x64.ShapeCasts S12000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S12000x64_S2000x6x64 : S12000x64.ShapeCasts S2000x6x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S2000x6x64 : S1x1x64.Broadcasts S2000x6x64
  reduces_S2000x6x64_S2000x64 : S2000x6x64.Reduces [1] S2000x64
  shapeCasts_S2000x64_S2000x1x64 : S2000x64.ShapeCasts S2000x1x64
  broadcasts_S2000x1x64_S2000x6x64 : S2000x1x64.Broadcasts S2000x6x64
  inb_S2000x64_S2000x64_0_0 : ∀ a, (![0, 0] : Fin 2 → Nat) a + S2000x64.size a ≤ S2000x64.size a
  h_S2000x64 : 0 < S2000x64.numel
  gather_S200000x32_S200000x12x1_S200000x12x32_2_0_n_n_0_2_132_wf : GatherDims.WF S200000x32 S200000x12x1 S200000x12x32 [2] [0] [] [0] [] 2 ![1, 32]
  dot_S12000x64_S64x64_S12000x64_1_0_0_1_n_n_wf : DotDims.WF S12000x64 S64x64 S12000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6x64.size a ≤ S200000x6x64.size a
  hwx0_0 : ∀ i : grid0.Coords, EltTy.bits .f32 = 32 ∨ (Rect.block (s := S200000x6x64) S2000x6x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S200000x64.size a
  hwx0_5 : ∀ i : grid0.Coords, EltTy.bits .f32 = 32 ∨ (Rect.block (s := S200000x64) S2000x64.size (cc0_transform_5 i) (hinb0_5 i)).WholeWords (EltTy.packing .f32)

variable [Facts₀]

def gather_S200000x32_S200000x12x1_S200000x12x32_2_0_n_n_0_2_132 : GatherDims S200000x32 S200000x12x1 S200000x12x32 where
  offsetDims := [2]
  collapsedSliceDims := [0]
  operandBatchingDims := []
  startIndicesBatchingDims := []
  startIndexMap := [0]
  indexVectorDim := 2
  sliceSizes := ![1, 32]
  wf := gather_S200000x32_S200000x12x1_S200000x12x32_2_0_n_n_0_2_132_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf

abbrev win0_0 : Pipeline.Window sig grid0 :=
  Pipeline.Window.ofSpec (Memref.whole main_v7) S2000x6x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x32 : Shape := ⟨2, ![200000, 32]⟩
abbrev S64x64 : Shape := ⟨2, ![64, 64]⟩
abbrev S64 : Shape := ⟨1, ![64]⟩
abbrev S200000x12 : Shape := ⟨2, ![200000, 12]⟩
abbrev S_ : Shape := ⟨0, ![]⟩
abbrev S200000x12x1 : Shape := ⟨3, ![200000, 12, 1]⟩
abbrev S200000x12x32 : Shape := ⟨3, ![200000, 12, 32]⟩
abbrev S200000x6x64 : Shape := ⟨3, ![200000, 6, 64]⟩
abbrev S1x1x64 : Shape := ⟨3, ![1, 1, 64]⟩
abbrev S200000x64 : Shape := ⟨2, ![200000, 64]⟩
abbrev S200000x1x64 : Shape := ⟨3, ![200000, 1, 64]⟩

abbrev nBuf : Space → Nat
  | .hbm => 66
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S200000x12, .i32⟩
  | .hbm, ⟨6, _⟩ => ⟨S_, .i32⟩
  | .hbm, ⟨7, _⟩ => ⟨S200000x12, .i32⟩
  | .hbm, ⟨8, _⟩ => ⟨S200000x12, .i1⟩
  | .hbm, ⟨9, _⟩ => ⟨S_, .i32⟩
  | .hbm, ⟨10, _⟩ => ⟨S200000x12, .i32⟩
  | .hbm, ⟨11, _⟩ => ⟨S200000x12, .i32⟩
  | .hbm, ⟨12, _⟩ => ⟨S200000x12, .i32⟩
  | .hbm, ⟨13, _⟩ => ⟨S200000x12x1, .i32⟩
  | .hbm, ⟨14, _⟩ => ⟨S200000x12x32, .f32⟩
  | .hbm, ⟨15, _⟩ => ⟨S200000x6x64, .f32⟩
  | .hbm, ⟨16, _⟩ => ⟨S200000x6x64, .f32⟩
  | .hbm, ⟨17, _⟩ => ⟨S1x1x64, .f32⟩
  | .hbm, ⟨18, _⟩ => ⟨S200000x6x64, .f32⟩
  | .hbm, ⟨19, _⟩ => ⟨S200000x6x64, .f32⟩
  | .hbm, ⟨20, _⟩ => ⟨S_, .f32⟩
  | .hbm, ⟨21, _⟩ => ⟨S200000x64, .f32⟩
  | .hbm, ⟨22, _⟩ => ⟨S200000x1x64, .f32⟩
  | .hbm, ⟨23, _⟩ => ⟨S_, .f32⟩
  | .hbm, ⟨24, _⟩ => ⟨S200000x1x64, .f32⟩
  | .hbm, ⟨25, _⟩ => ⟨S200000x1x64, .f32⟩
  | .hbm, ⟨26, _⟩ => ⟨S_, .i32⟩
  | .hbm, ⟨27, _⟩ => ⟨S_, .f32⟩
  | .hbm, ⟨28, _⟩ => ⟨S200000x64, .f32⟩
  | .hbm, ⟨29, _⟩ => ⟨S200000x1x64, .f32⟩
  | .hbm, ⟨30, _⟩ => ⟨S_, .f32⟩
  | .hbm, ⟨31, _⟩ => ⟨S200000x1x64, .f32⟩
  | .hbm, ⟨32, _⟩ => ⟨S200000x1x64, .f32⟩
  | .hbm, ⟨33, _⟩ => ⟨S200000x6x64, .f32⟩
  | .hbm, ⟨34, _⟩ => ⟨S200000x6x64, .f32⟩
  | .hbm, ⟨35, _⟩ => ⟨S200000x6x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S200000x64, .f32⟩
  | .hbm, ⟨41, _⟩ => ⟨S200000x1x64, .f32⟩
  | .hbm, ⟨42, _⟩ => ⟨S200000x1x64, .f32⟩
  | .hbm, ⟨43, _⟩ => ⟨S200000x1x64, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S200000x1x64, .f32⟩
  | .hbm, ⟨49, _⟩ => ⟨S200000x1x64, .f32⟩
  | .hbm, ⟨50, _⟩ => ⟨S200000x6x64, .f32⟩
  | .hbm, ⟨51, _⟩ => ⟨S200000x6x64, .f32⟩
  | .hbm, ⟨52, _⟩ => ⟨S_, .f32⟩
  | .hbm, ⟨53, _⟩ => ⟨S200000x1x64, .f32⟩
  | .hbm, ⟨54, _⟩ => ⟨S200000x1x64, .f32⟩
  | .hbm, ⟨55, _⟩ => ⟨S200000x1x64, .f32⟩
  | .hbm, ⟨56, _⟩ => ⟨S200000x6x64, .f32⟩
  | .hbm, ⟨57, _⟩ => ⟨S200000x6x64, .f32⟩
  | .hbm, ⟨58, _⟩ => ⟨S1x1x64, .f32⟩
  | .hbm, ⟨59, _⟩ => ⟨S200000x6x64, .f32⟩
  | .hbm, ⟨60, _⟩ => ⟨S200000x6x64, .f32⟩
  | .hbm, ⟨61, _⟩ => ⟨S1x1x64, .f32⟩
  | .hbm, ⟨62, _⟩ => ⟨S200000x6x64, .f32⟩
  | .hbm, ⟨63, _⟩ => ⟨S200000x6x64, .f32⟩
  | .hbm, ⟨64, _⟩ => ⟨S_, .f32⟩
  | .hbm, ⟨65, _⟩ => ⟨S200000x64, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩

abbrev nD : Nat := 1
abbrev τ : Topo := Topo.v7x

variable {F : FTy → Type} [FloatOps F]

class Facts₀ : Prop where
  bcast_S_S200000x12 : S_.BroadcastsInDim S200000x12 (![] : Fin 0 → Fin S200000x12.rank)
  bcast_S200000x12_S200000x12x1_0_1 : S200000x12.BroadcastsInDim S200000x12x1 (![0, 1] : Fin 2 → Fin S200000x12x1.rank)
  shapeCasts_S200000x12x32_S200000x6x64 : S200000x12x32.ShapeCasts S200000x6x64
  bcast_S64_S1x1x64_2 : S64.BroadcastsInDim S1x1x64 (![2] : Fin 1 → Fin S1x1x64.rank)
  bcast_S1x1x64_S200000x6x64_0_1_2 : S1x1x64.BroadcastsInDim S200000x6x64 (![0, 1, 2] : Fin 3 → Fin S200000x6x64.rank)
  reducesTo_S200000x6x64_S200000x64_d1 : S200000x6x64.ReducesTo [1] S200000x64
  h_S_ : 0 < S_.numel
  bcast_S200000x64_S200000x1x64_0_2 : S200000x64.BroadcastsInDim S200000x1x64 (![0, 2] : Fin 2 → Fin S200000x1x64.rank)
  bcast_S_S200000x1x64 : S_.BroadcastsInDim S200000x1x64 (![] : Fin 0 → Fin S200000x1x64.rank)
  bcast_S200000x1x64_S200000x6x64_0_1_2 : S200000x1x64.BroadcastsInDim S200000x6x64 (![0, 1, 2] : Fin 3 → Fin S200000x6x64.rank)
  gather_S200000x32_S200000x12x1_S200000x12x32_2_0_n_n_0_2_132_wf : GatherDims.WF S200000x32 S200000x12x1 S200000x12x32 [2] [0] [] [0] [] 2 ![1, 32]
  dot_S200000x6x64_S64x64_S200000x6x64_2_1_01_0_n_n_wf : DotDims.WF S200000x6x64 S64x64 S200000x6x64 [2] [1] [0, 1] [0] [] []

variable [Facts₀]

def gather_S200000x32_S200000x12x1_S200000x12x32_2_0_n_n_0_2_132 : GatherDims S200000x32 S200000x12x1 S200000x12x32 where
  offsetDims := [2]
  collapsedSliceDims := [0]
  operandBatchingDims := []
  startIndicesBatchingDims := []
  startIndexMap := [0]
  indexVectorDim := 2
  sliceSizes := ![1, 32]
  wf := gather_S200000x32_S200000x12x1_S200000x12x32_2_0_n_n_0_2_132_wf
def dot_S200000x6x64_S64x64_S200000x6x64_2_1_01_0_n_n : DotDims S200000x6x64 S64x64 S200000x6x64 where
  lhsContracting := [2]
  rhsContracting := [1]
  lhsNonContracting := [0, 1]
  rhsNonContracting := [0]
  lhsBatch := []
  rhsBatch := []
  wf := dot_S200000x6x64_S64x64_S200000x6x64_2_1_01_0_n_n_wf

class Facts : Prop extends Facts₀ where

variable [Facts]
-- ==== Proof.PermNorm.lean ====
/-
  The function both programs compute, on the extended reals.

  For an array X of shape [N, 6, 64] (node n, slot p, input feature k), a weight matrix W of shape [64, 64]
  (output feature o, input feature k) and three vectors b, γ, β over the 64 output features:

      y n p o  = (Σ_k X n p k · W o k) + b o                      the linear layer on every slot
      μ n o    = (Σ_p y n p o) / 6                                the mean over the six slots
      d n p o  = y n p o − μ n o
      σ² n o   = (Σ_p d n p o · d n p o) / 6                      the biased variance over the six slots
      out n o  = Σ_p ((d n p o · rsqrt (σ² n o + ε)) · γ o + β o) normalized, scaled, shifted, summed over the slots

  Every step acts on one (node, output feature) column of six entries, so the result at node n depends only on
  the rows of X that belong to n: a block of nodes of the result is the same function of that block of X.
  `six` and `eps` are whatever the two float literals denote; no law below looks inside them.
-/
import Idealize.ShloMosaic.PureOps.Ideal
import Idealize.ShloMosaic.Lib.ValueIdx

noncomputable section

namespace Cert.PermNorm

open Idealize.ShloMosaic Idealize.ShloMosaic.ValueIdx

/-- The divisor of both means: the literal 6.0. -/
abbrev six : EReal := Ideal.ofBits .f32 0x40C00000#32
/-- The variance's offset: the literal nearest 1e-5. -/
abbrev eps : EReal := Ideal.ofBits .f32 0x3727C5AC#32

/-- The mean of a column of six entries. -/
def colMean (y : Fin 6 → EReal) : EReal := Ideal.div (∑ q : Fin 6, y q) six

/-- An entry's deviation from its column's mean. -/
def colDev (y : Fin 6 → EReal) (p : Fin 6) : EReal := y p - colMean y

/-- The biased variance of a column: the mean of the squared deviations. -/
def colVar (y : Fin 6 → EReal) : EReal := Ideal.div (∑ q : Fin 6, colDev y q * colDev y q) six

/-- A column normalized, scaled by `g`, shifted by `be`, and summed. -/
def colNorm (y : Fin 6 → EReal) (g be : EReal) : EReal :=
  ∑ p : Fin 6, (colDev y p * Ideal.rsqrt (colVar y + eps) * g + be)

/-- One output of the linear layer: a row of 64 inputs against a row of 64 weights, plus the bias. -/
def lin (x w : Fin 64 → EReal) (b : EReal) : EReal := (∑ k : Fin 64, x k * w k) + b

/-- The result at node `n` and output feature `o`. -/
def normSum {N : ℕ} (X : FVec Ideal ⟨3, ![N, 6, 64]⟩ .f32) (W : FVec Ideal ⟨2, ![64, 64]⟩ .f32)
    (b g be : Fin 64 → EReal) (n : Fin N) (o : Fin 64) : EReal :=
  colNorm (fun p => lin (fun k => X (ix3 n p k)) (fun k => W (ix2 o k)) (b o)) (g o) (be o)

/-- The whole result array. -/
def normSumArr {N : ℕ} (X : FVec Ideal ⟨3, ![N, 6, 64]⟩ .f32) (W : FVec Ideal ⟨2, ![64, 64]⟩ .f32)
    (b g be : Fin 64 → EReal) : FVec Ideal ⟨2, ![N, 64]⟩ .f32 :=
  fun j => normSum X W b g be (j 0) (j 1)

theorem normSumArr_apply {N : ℕ} (X : FVec Ideal ⟨3, ![N, 6, 64]⟩ .f32) (W : FVec Ideal ⟨2, ![64, 64]⟩ .f32)
    (b g be : Fin 64 → EReal) (n : Fin N) (o : Fin 64) :
    normSumArr X W b g be (ix2 n o) = normSum X W b g be n o := rfl

/-- A block of nodes of the result is the function of that block of X: if `x` holds, at local node `r`, the rows
    `X` holds at node `row r`, and the other operands agree, the results agree at `r` and `row r`. -/
theorem normSum_of_rows {N M : ℕ} (x : FVec Ideal ⟨3, ![M, 6, 64]⟩ .f32) (X : FVec Ideal ⟨3, ![N, 6, 64]⟩ .f32)
    (w W : FVec Ideal ⟨2, ![64, 64]⟩ .f32) (b g be b' g' be' : Fin 64 → EReal) (r : Fin M) (n : Fin N) (o : Fin 64)
    (hx : ∀ p k, x (ix3 r p k) = X (ix3 n p k)) (hw : ∀ k, w (ix2 o k) = W (ix2 o k))
    (hb : b o = b' o) (hg : g o = g' o) (hbe : be o = be' o) :
    normSum x w b g be r o = normSum X W b' g' be' n o := by
  unfold normSum
  rw [hb, hg, hbe]
  congr 1
  funext p
  congr 1
  · funext k; exact hx p k
  · funext k; exact hw k

end Cert.PermNorm

end
-- ==== Proof.KernelPay.lean ====
/-
  The kernel body's arithmetic on one block of 2000 nodes, read index by index on the extended reals.

  The body's one stored value is staged here as named functions of the loaded blocks — the linear layer on the
  12000 = 2000 · 6 rows regrouped per node, the sum over the six slots kept as a column, the mean, the deviations,
  one over the square root of the variance plus the offset — and each stage is read at an index; composed, the
  stored value at local node r and output feature o is the column-wise normalization of Proof/PermNorm.lean.
  A change of float format is the identity on the extended reals, and the matrix product into a zero accumulator
  is the plain sum over the 64 input features.
-/
import proofs.«153205_j20847771255045_1_alg».proof.Proof.Gen.KernelIdeal.Skeleton
import proofs.«153205_j20847771255045_1_alg».proof.Proof.PermNorm
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.PermNorm

/-! ## The matrix product's operand indices -/

theorem lhs_axis0 (j : S12000x64.Idx) (k : dot_S12000x64_S64x64_S12000x64_1_0_0_1_n_n.contr.Idx) :
    (dot_S12000x64_S64x64_S12000x64_1_0_0_1_n_n.lhsIdx j k 0 : ℕ) = j 0 := by
  simp [DotDims.lhsIdx, dot_S12000x64_S64x64_S12000x64_1_0_0_1_n_n]; rfl
theorem lhs_axis1 (j : S12000x64.Idx) (k : dot_S12000x64_S64x64_S12000x64_1_0_0_1_n_n.contr.Idx) :
    (dot_S12000x64_S64x64_S12000x64_1_0_0_1_n_n.lhsIdx j k 1 : ℕ) = k ⟨0, by decide⟩ := by
  simp [DotDims.lhsIdx, dot_S12000x64_S64x64_S12000x64_1_0_0_1_n_n]; rfl
theorem rhs_axis0 (j : S12000x64.Idx) (k : dot_S12000x64_S64x64_S12000x64_1_0_0_1_n_n.contr.Idx) :
    (dot_S12000x64_S64x64_S12000x64_1_0_0_1_n_n.rhsIdx j k 0 : ℕ) = k ⟨0, by decide⟩ := by
  simp [DotDims.rhsIdx, dot_S12000x64_S64x64_S12000x64_1_0_0_1_n_n]; rfl
theorem rhs_axis1 (j : S12000x64.Idx) (k : dot_S12000x64_S64x64_S12000x64_1_0_0_1_n_n.contr.Idx) :
    (dot_S12000x64_S64x64_S12000x64_1_0_0_1_n_n.rhsIdx j k 1 : ℕ) = j 1 := by
  simp [DotDims.rhsIdx, dot_S12000x64_S64x64_S12000x64_1_0_0_1_n_n]; rfl

/-- The product of a 12000 × 64 matrix by a 64 × 64 matrix into the zero matrix, at row e and column o: the sum
    over the 64 inner positions. -/
theorem product_apply (l : FVec Ideal S12000x64 .bf16) (w : FVec Ideal S64x64 .bf16) (e : Fin 12000) (o : Fin 64) :
    matmul dot_S12000x64_S64x64_S12000x64_1_0_0_1_n_n none l w (constant S12000x64 .f32 0x00000000#32) (ix2 e o)
      = ∑ k : Fin 64, l (ix2 e k) * w (ix2 k o) := by
  refine (Ideal.matmul_constant_zero_apply dot_S12000x64_S64x64_S12000x64_1_0_0_1_n_n none l w (ix2 e o)).trans ?_
  rw [← Equiv.sum_comp (contrEquiv1 dot_S12000x64_S64x64_S12000x64_1_0_0_1_n_n 64 rfl rfl).symm]
  refine Finset.sum_congr rfl fun k _ => ?_
  have hl : dot_S12000x64_S64x64_S12000x64_1_0_0_1_n_n.lhsIdx (ix2 e o)
      ((contrEquiv1 dot_S12000x64_S64x64_S12000x64_1_0_0_1_n_n 64 rfl rfl).symm k) = ix2 e k := by
    funext a; apply Fin.ext
    match a with
    | ⟨0, _⟩ => exact lhs_axis0 _ _
    | ⟨1, _⟩ => exact (lhs_axis1 _ _).trans (contrEquiv1_symm_val _ 64 rfl rfl k)
  have hr : dot_S12000x64_S64x64_S12000x64_1_0_0_1_n_n.rhsIdx (ix2 e o)
      ((contrEquiv1 dot_S12000x64_S64x64_S12000x64_1_0_0_1_n_n 64 rfl rfl).symm k) = ix2 k o := by
    funext a; apply Fin.ext
    match a with
    | ⟨0, _⟩ => exact (rhs_axis0 _ _).trans (contrEquiv1_symm_val _ 64 rfl rfl k)
    | ⟨1, _⟩ => exact rhs_axis1 _ _
  rw [hl, hr]

/-! ## The stages -/

/-- A vector of 64 entries held as one row, laid along every slot of every node. -/
def alongFeatures (x : Vec Ideal S1x64 .f32) : FVec Ideal S2000x6x64 .f32 :=
  broadcastTo S2000x6x64 (shapeCast S1x1x64 (shapeCast S1x64 x shapeCasts_S1x64_S1x64) shapeCasts_S1x64_S1x1x64)
    broadcasts_S1x1x64_S2000x6x64

/-- The linear layer: the block's 12000 rows against the transposed weights, regrouped per node, plus the bias. -/
def linBlock (x0 : Vec Ideal S2000x6x64 .f32) (x1 : Vec Ideal S64x64 .f32) (x2 : Vec Ideal S1x64 .f32) :
    FVec Ideal S2000x6x64 .f32 :=
  addf
    (shapeCast S2000x6x64
      (matmul dot_S12000x64_S64x64_S12000x64_1_0_0_1_n_n none
        (shapeCast S12000x64 (truncf .bf16 (shapeCast S2000x6x64 x0 shapeCasts_S2000x6x64_S2000x6x64) bitsLt_bf16_f32)
          shapeCasts_S2000x6x64_S12000x64)
        (transpose S64x64 [1, 0] (truncf .bf16 x1 bitsLt_bf16_f32) transposes_S64x64_p1_0_S64x64)
        (constant S12000x64 .f32 0x00000000#32))
      shapeCasts_S12000x64_S2000x6x64)
    (alongFeatures x2)

/-- The sum over the six slots, kept as a column. -/
def slotSum (Y : FVec Ideal S2000x6x64 .f32) : FVec Ideal S2000x1x64 .f32 :=
  shapeCast S2000x1x64
    (multiReduction .add [1] S2000x64 Y 0x00000000#32 reduces_S2000x6x64_S2000x64 (.inl rfl) rfl)
    shapeCasts_S2000x64_S2000x1x64

/-- A column laid along the six slots. -/
def alongSlots (z : FVec Ideal S2000x1x64 .f32) : FVec Ideal S2000x6x64 .f32 :=
  broadcastTo S2000x6x64 z broadcasts_S2000x1x64_S2000x6x64

/-- A column divided by the literal 6.0. -/
def overSix (z : FVec Ideal S2000x1x64 .f32) : FVec Ideal S2000x1x64 .f32 :=
  divf z (broadcast S2000x1x64 (Scalar.ofBits .f32 0x40C00000#32))

/-- The deviations from the mean over the six slots. -/
def devBlock (Y : FVec Ideal S2000x6x64 .f32) : FVec Ideal S2000x6x64 .f32 :=
  subf Y (alongSlots (overSix (slotSum Y)))

/-- One over the square root of the mean squared deviation plus the offset, as a column. -/
def invStdBlock (D : FVec Ideal S2000x6x64 .f32) : FVec Ideal S2000x1x64 .f32 :=
  rsqrt (addf (overSix (slotSum (mulf D D))) (broadcast S2000x1x64 (Scalar.ofBits .f32 0x3727C5AC#32)))

/-- The body's stored value is the composition of the stages, summed over the six slots. -/
theorem pay_staged (x0 : Vec Ideal S2000x6x64 .f32) (x1 : Vec Ideal S64x64 .f32) (x2 x3 x4 : Vec Ideal S1x64 .f32) :
    k0_pay1 (F := Ideal) x0 x1 x2 x3 x4
      = multiReduction .add [1] S2000x64
          (addf
            (mulf (mulf (devBlock (linBlock x0 x1 x2)) (alongSlots (invStdBlock (devBlock (linBlock x0 x1 x2)))))
              (alongFeatures x3))
            (alongFeatures x4))
          0x00000000#32 reduces_S2000x6x64_S2000x64 (.inl rfl) rfl := rfl

/-! ## Each stage at an index -/

theorem alongFeatures_apply (x : Vec Ideal S1x64 .f32) (r : Fin 2000) (p : Fin 6) (o : Fin 64) :
    alongFeatures x (ix3 r p o) = x (ix2 (0 : Fin 1) o) := by
  unfold alongFeatures
  refine (broadcastTo_apply _ broadcasts_S1x1x64_S2000x6x64 (ix3 r p o) (ix3 (0 : Fin 1) (0 : Fin 1) o) (fun a => by
    match a with
    | ⟨0, _⟩ => rfl
    | ⟨1, _⟩ => rfl
    | ⟨2, _⟩ => rfl)).trans ?_
  refine (shapeCast_apply _ shapeCasts_S1x64_S1x1x64 (ix3 (0 : Fin 1) (0 : Fin 1) o) (ix2 (0 : Fin 1) o) (by
    rw [Shape.rowMajor_val_two, Shape.rowMajor_val_three]; rfl)).trans ?_
  rw [shapeCast_self]

/-- The sum over the middle axis of a block, at local node r and output feature o: the six entries of that column. -/
theorem sumSlots_apply (Y : FVec Ideal S2000x6x64 .f32) (r : Fin 2000) (o : Fin 64) :
    multiReduction .add [1] S2000x64 Y 0x00000000#32 reduces_S2000x6x64_S2000x64 (.inl rfl) rfl (ix2 r o)
      = ∑ p : Fin 6, Y (ix3 r p o) := by
  refine (Ideal.multiReduction_add_single Y 0x00000000#32 reduces_S2000x6x64_S2000x64 (.inl rfl) rfl (ix2 r o)).trans ?_
  exact Finset.sum_congr rfl fun p _ => congrArg Y (funext fun c => Fin.ext (by
    match c with
    | ⟨0, _⟩ => rfl
    | ⟨1, _⟩ => rfl
    | ⟨2, _⟩ => rfl))

theorem slotSum_apply (Y : FVec Ideal S2000x6x64 .f32) (r : Fin 2000) (o : Fin 64) :
    slotSum Y (ix3 r (0 : Fin 1) o) = ∑ p : Fin 6, Y (ix3 r p o) := by
  unfold slotSum
  refine (shapeCast_apply _ shapeCasts_S2000x64_S2000x1x64 (ix3 r (0 : Fin 1) o) (ix2 r o) (by
    rw [Shape.rowMajor_val_two, Shape.rowMajor_val_three]
    show r.val * 64 + o.val = (r.val * 1 + 0) * 64 + o.val
    omega)).trans ?_
  exact sumSlots_apply Y r o

theorem alongSlots_apply (z : FVec Ideal S2000x1x64 .f32) (r : Fin 2000) (p : Fin 6) (o : Fin 64) :
    alongSlots z (ix3 r p o) = z (ix3 r (0 : Fin 1) o) := by
  unfold alongSlots
  exact broadcastTo_apply z broadcasts_S2000x1x64_S2000x6x64 (ix3 r p o) (ix3 r (0 : Fin 1) o) (fun a => by
    match a with
    | ⟨0, _⟩ => rfl
    | ⟨1, _⟩ => rfl
    | ⟨2, _⟩ => rfl)

theorem overSix_apply (z : FVec Ideal S2000x1x64 .f32) (i : S2000x1x64.Idx) : overSix z i = Ideal.div (z i) six := rfl

theorem linBlock_apply (x0 : Vec Ideal S2000x6x64 .f32) (x1 : Vec Ideal S64x64 .f32) (x2 : Vec Ideal S1x64 .f32)
    (r : Fin 2000) (p : Fin 6) (o : Fin 64) :
    linBlock x0 x1 x2 (ix3 r p o)
      = lin (fun k => x0 (ix3 r p k)) (fun k => x1 (ix2 o k)) (x2 (ix2 (0 : Fin 1) o)) := by
  have hr : r.val < 2000 := r.isLt
  have hp : p.val < 6 := p.isLt
  unfold linBlock lin
  show _ + alongFeatures x2 (ix3 r p o) = _
  rw [alongFeatures_apply]
  congr 1
  refine (shapeCast_apply _ shapeCasts_S12000x64_S2000x6x64 (ix3 r p o) (ix2 (⟨6 * r.val + p.val, by omega⟩ : Fin 12000) o) (by
    rw [Shape.rowMajor_val_two, Shape.rowMajor_val_three]
    show (6 * r.val + p.val) * 64 + o.val = (r.val * 6 + p.val) * 64 + o.val
    omega)).trans ?_
  refine (product_apply _ _ _ o).trans ?_
  refine Finset.sum_congr rfl fun k _ => ?_
  congr 1
  · refine (shapeCast_apply _ shapeCasts_S2000x6x64_S12000x64 (ix2 (⟨6 * r.val + p.val, by omega⟩ : Fin 12000) k) (ix3 r p k) (by
      rw [Shape.rowMajor_val_two, Shape.rowMajor_val_three]
      show (r.val * 6 + p.val) * 64 + k.val = (6 * r.val + p.val) * 64 + k.val
      omega)).trans ?_
    show shapeCast S2000x6x64 x0 shapeCasts_S2000x6x64_S2000x6x64 (ix3 r p k) = _
    rw [shapeCast_self]
  · exact transpose_apply [1, 0] _ transposes_S64x64_p1_0_S64x64 (ix2 k o) (ix2 o k) (fun b => by
      match b with
      | ⟨0, _⟩ => rfl
      | ⟨1, _⟩ => rfl)

theorem devBlock_apply (Y : FVec Ideal S2000x6x64 .f32) (r : Fin 2000) (p : Fin 6) (o : Fin 64) :
    devBlock Y (ix3 r p o) = colDev (fun q => Y (ix3 r q o)) p := by
  unfold devBlock colDev colMean
  show Y (ix3 r p o) - alongSlots (overSix (slotSum Y)) (ix3 r p o) = _
  rw [alongSlots_apply, overSix_apply, slotSum_apply]

theorem invStdBlock_apply (D : FVec Ideal S2000x6x64 .f32) (r : Fin 2000) (o : Fin 64) :
    invStdBlock D (ix3 r (0 : Fin 1) o)
      = Ideal.rsqrt (Ideal.div (∑ q : Fin 6, D (ix3 r q o) * D (ix3 r q o)) six + eps) := by
  unfold invStdBlock
  show Ideal.rsqrt (overSix (slotSum (mulf D D)) (ix3 r (0 : Fin 1) o) + eps) = _
  rw [overSix_apply, slotSum_apply]
  rfl

/-! ## The stored value at an index -/

/-- At local node r and output feature o the body stores the column-wise normalization of the block's rows of r. -/
theorem pay_apply (x0 : Vec Ideal S2000x6x64 .f32) (x1 : Vec Ideal S64x64 .f32) (x2 x3 x4 : Vec Ideal S1x64 .f32)
    (r : Fin 2000) (o : Fin 64) :
    k0_pay1 (F := Ideal) x0 x1 x2 x3 x4 (ix2 r o)
      = normSum x0 x1 (fun o => x2 (ix2 (0 : Fin 1) o)) (fun o => x3 (ix2 (0 : Fin 1) o)) (fun o => x4 (ix2 (0 : Fin 1) o)) r o := by
  rw [pay_staged]
  refine (sumSlots_apply _ r o).trans ?_
  unfold normSum colNorm
  refine Finset.sum_congr rfl fun p _ => ?_
  have hy : (fun q => linBlock x0 x1 x2 (ix3 r q o))
      = fun q => lin (fun k => x0 (ix3 r q k)) (fun k => x1 (ix2 o k)) (x2 (ix2 (0 : Fin 1) o)) :=
    funext fun q => linBlock_apply x0 x1 x2 r q o
  show devBlock (linBlock x0 x1 x2) (ix3 r p o) * alongSlots (invStdBlock (devBlock (linBlock x0 x1 x2))) (ix3 r p o)
      * alongFeatures x3 (ix3 r p o) + alongFeatures x4 (ix3 r p o) = _
  rw [alongSlots_apply, invStdBlock_apply, alongFeatures_apply, alongFeatures_apply, devBlock_apply]
  simp only [devBlock_apply]
  rw [hy]
  rfl

end Cert.KernelIdeal.Hand

end
-- ==== Proof.KernelValue.lean ====
/-
  The kernel's result array after the run, as one function of its arguments, on the extended reals.

  Grid point t works on nodes 2000·t … 2000·t + 1999: its block of the regrouped neighbour rows is those nodes'
  rows, the weights and the three vectors are whole at every point, and what it writes back is that block of the
  column-wise normalization (Proof/PermNorm.lean) of the whole arrays, because the normalization acts node by node.
  The hundred blocks tile the result array (node n lies in block n / 2000), so the array ends holding the
  normalization of the arrays the region finds: the gathered rows, the weights as launched, and each vector held as
  one row of 64.
-/
import proofs.«153205_j20847771255045_1_alg».proof.Proof.Gen.KernelIdeal.Value
import proofs.«153205_j20847771255045_1_alg».proof.Proof.KernelPay
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.PermNorm
open Idealize.ShloMosaic.StableHlo

/-- Negative indices wrapped by the table's length, every node's twelve neighbour rows of 32 features gathered, and
    the twelve rows regrouped as six rows of 64. -/
def siteRows {F : FTy → Type} [FloatOps F] (a0 : FVec F S200000x32 .f32) (a5 : IVec S200000x12 32) :
    FVec F S200000x6x64 .f32 :=
  shapeCast S200000x6x64
    (Host.gather gather_S200000x32_S200000x12x1_S200000x12x32_2_0_n_n_0_2_132 a0
      (broadcastInDim S200000x12x1 ![0, 1] bcast_S200000x12_S200000x12x1_0_1
        (select (cmpi .slt a5 (broadcastInDim S200000x12 ![] bcast_S_S200000x12 (constantI S_ 32 0#32)))
          (addi a5 (broadcastInDim S200000x12 ![] bcast_S_S200000x12 (constantI S_ 32 200000#32))) a5)))
    shapeCasts_S200000x12x32_S200000x6x64

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the region finds in the windows' arrays -/

theorem V_rows (c : Dev nD) :
    (V m c main_v7 : FVec Ideal S200000x6x64 .f32)
      = siteRows (F := Ideal) (m ((c : Thread nD τ).loc main_arg0)) (m ((c : Thread nD τ).loc main_arg5)) := by
  dsimp only [V, hostOps0]
  after_results
  rfl

theorem V_bias (c : Dev nD) :
    (V m c main_v8 : FVec Ideal S1x64 .f32) = shapeCast S1x64 (m ((c : Thread nD τ).loc main_arg2)) shapeCasts_S64_S1x64 := by
  dsimp only [V, hostOps0]
  after_results
  rfl

theorem V_scale (c : Dev nD) :
    (V m c main_v9 : FVec Ideal S1x64 .f32) = shapeCast S1x64 (m ((c : Thread nD τ).loc main_arg3)) shapeCasts_S64_S1x64 := by
  dsimp only [V, hostOps0]
  after_results
  rfl

theorem V_shift (c : Dev nD) :
    (V m c main_v10 : FVec Ideal S1x64 .f32) = shapeCast S1x64 (m ((c : Thread nD τ).loc main_arg4)) shapeCasts_S64_S1x64 := by
  dsimp only [V, hostOps0]
  after_results
  rfl

/-- A vector of 64 entries held as one row reads, at (0, o), the vector at o. -/
theorem row_read (a : FVec Ideal S64 .f32) (o : Fin 64) :
    shapeCast S1x64 a shapeCasts_S64_S1x64 (ix2 (0 : Fin 1) o) = a (ix1 o) :=
  shapeCast_apply a shapeCasts_S64_S1x64 (ix2 (0 : Fin 1) o) (ix1 o) (by
    rw [Shape.rowMajor_val_one, Shape.rowMajor_val_two]
    show o.val = 0 * 64 + o.val
    omega)

/-! ## The index maps over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks as parts of the arrays -/

/-- Point t's block of the regrouped rows holds, at local node r, the rows of node 2000·t + r. -/
theorem rows_read (c : Dev nD) (t : Fin cfg0.N) (r : Fin 2000) (p : Fin 6) (k : Fin 64) (h : 2000 * t.val + r.val < 200000) :
    (iblk m c 0 t : Vec Ideal S2000x6x64 .f32) (ix3 r p k)
      = (V m c main_v7 : FVec Ideal S200000x6x64 .f32) (ix3 (⟨2000 * t.val + r.val, h⟩ : Fin 200000) p k) := by
  obtain ⟨e0, e1, e2, -⟩ := idx_facts t
  unfold iblk
  rw [View.read_apply]
  show V m c main_v7 _ = V m c main_v7 _
  congr 1
  funext a
  apply Fin.ext
  match a with
  | ⟨0, _⟩ => show win0_0.index t (0 : Fin 3) * 2000 + 1 * r.val = 2000 * t.val + r.val; rw [e0]; omega
  | ⟨1, _⟩ => show win0_0.index t (1 : Fin 3) * 6 + 1 * p.val = p.val; rw [e1]; omega
  | ⟨2, _⟩ => show win0_0.index t (2 : Fin 3) * 64 + 1 * k.val = k.val; rw [e2]; omega

/-- Every point's block of the weights is the whole matrix. -/
theorem weights_read (c : Dev nD) (t : Fin cfg0.N) (o k : Fin 64) :
    (iblk m c 1 t : Vec Ideal S64x64 .f32) (ix2 o k) = (V m c main_arg1 : FVec Ideal S64x64 .f32) (ix2 o k) := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 64 + 1 * o.val = o.val; rw [e0]; omega
  | ⟨1, _⟩ => show win0_1.index t (1 : Fin 2) * 64 + 1 * k.val = k.val; rw [e1]; omega

/-- Every point's block of the bias row is the whole row; likewise the scale's and the shift's. -/
theorem bias_read (c : Dev nD) (t : Fin cfg0.N) (o : Fin 64) :
    (iblk m c 2 t : Vec Ideal S1x64 .f32) (ix2 (0 : Fin 1) o) = (V m c main_v8 : FVec Ideal S1x64 .f32) (ix2 (0 : Fin 1) o) := by
  obtain ⟨-, -, -, -, -, e0, e1, -⟩ := idx_facts t
  unfold iblk
  rw [View.read_apply]
  show V m c main_v8 _ = V m c main_v8 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * o.val = o.val; rw [e1]; omega

theorem scale_read (c : Dev nD) (t : Fin cfg0.N) (o : Fin 64) :
    (iblk m c 3 t : Vec Ideal S1x64 .f32) (ix2 (0 : Fin 1) o) = (V m c main_v9 : FVec Ideal S1x64 .f32) (ix2 (0 : Fin 1) o) := by
  obtain ⟨-, -, -, -, -, -, -, e0, e1, -⟩ := idx_facts t
  unfold iblk
  rw [View.read_apply]
  show V m c main_v9 _ = V m c main_v9 _
  congr 1
  funext a
  apply Fin.ext
  match a with
  | ⟨0, _⟩ => show win0_3.index t (0 : Fin 2) * 1 + 1 * 0 = 0; rw [e0]
  | ⟨1, _⟩ => show win0_3.index t (1 : Fin 2) * 64 + 1 * o.val = o.val; rw [e1]; omega

theorem shift_read (c : Dev nD) (t : Fin cfg0.N) (o : Fin 64) :
    (iblk m c 4 t : Vec Ideal S1x64 .f32) (ix2 (0 : Fin 1) o) = (V m c main_v10 : FVec Ideal S1x64 .f32) (ix2 (0 : Fin 1) o) := by
  obtain ⟨-, -, -, -, -, -, -, -, -, e0, e1, -⟩ := idx_facts t
  unfold iblk
  rw [View.read_apply]
  show V m c main_v10 _ = V m c main_v10 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * o.val = o.val; rw [e1]; omega

/-! ## What each point writes back, and the whole array -/

/-- The normalization of the arrays the region finds. -/
abbrev outArr (c : Dev nD) : FVec Ideal S200000x64 .f32 :=
  normSumArr (V m c main_v7 : FVec Ideal S200000x6x64 .f32) (V m c main_arg1 : FVec Ideal S64x64 .f32)
    (fun o => (V m c main_v8 : FVec Ideal S1x64 .f32) (ix2 (0 : Fin 1) o))
    (fun o => (V m c main_v9 : FVec Ideal S1x64 .f32) (ix2 (0 : Fin 1) o))
    (fun o => (V m c main_v10 : FVec Ideal S1x64 .f32) (ix2 (0 : Fin 1) o))

/-- Point t writes back block t of the normalization of the whole arrays. -/
theorem flushed_eq (c : Dev nD) (t : Fin cfg0.N) :
    (dats m 0 c).flushed 5 t = ((cfg0.win 5).blk t).view.read (Elt Ideal) (outArr m c) := by
  have hN : cfg0.N = 100 := N_0
  have ht : t.val < 100 := by have := t.isLt; omega
  obtain ⟨-, -, -, -, -, -, -, -, -, -, -, e50, e51⟩ := idx_facts t
  rw [flushed5]
  unfold out0_5
  rw [View.canon_unit_zero hz2]
  simp only [View.ld_unit_zero (S := S2000x6x64) hz3, View.ld_unit_zero (S := S64x64) hz2, View.ld_unit_zero (S := S1x64) hz2]
  funext j
  obtain ⟨r, o, rfl⟩ : ∃ (r : Fin 2000) (o : Fin 64), j = ix2 r o := ⟨j 0, j 1, eq_ix2 j⟩
  have hr : r.val < 2000 := r.isLt
  show k0_pay1 (F := Ideal) (iblk m c 0 t) (iblk m c 1 t) (iblk m c 2 t) (iblk m c 3 t) (iblk m c 4 t) (ix2 r o)
      = outArr m c (((cfg0.win 5).blk t).view.emb (ix2 r o))
  have hemb : ((cfg0.win 5).blk t).view.emb (ix2 r o) = ix2 (⟨2000 * t.val + r.val, by omega⟩ : Fin 200000) o := by
    funext a
    apply Fin.ext
    match a with
    | ⟨0, _⟩ => show win0_5.index t (0 : Fin 2) * 2000 + 1 * r.val = 2000 * t.val + r.val; rw [e50]; omega
    | ⟨1, _⟩ => show win0_5.index t (1 : Fin 2) * 64 + 1 * o.val = o.val; rw [e51]; omega
  rw [hemb]
  refine (pay_apply _ _ _ _ _ r o).trans ?_
  exact normSum_of_rows _ _ _ _ _ _ _ _ _ _ r _ o (fun p k => rows_read m c t r p k (by omega))
    (fun k => weights_read m c t o k) (bias_read m c t o) (scale_read m c t o) (shift_read m c t o)

/-- An index of the result array is in point t's block iff each coordinate is in the block's range on its axis. -/
theorem mem_blk (t : Fin cfg0.N) (i : S200000x64.Idx) :
    i ∈ ((cfg0.win 5).blk t).view.set
      ↔ ∀ a : Fin 2, win0_5.index t a * S2000x64.size a ≤ (i a).val ∧ (i a).val < win0_5.index t a * S2000x64.size a + S2000x64.size a := by
  show i ∈ ((View.whole main_v11).slice (win0_5.rect t)).set ↔ _
  rw [View.set_slice_whole, Rect.mem_set_unit]
  exact Iff.rfl

/-- The result array after the run: the hundred blocks tile it. -/
theorem final (c : Dev nD) : (dats m 0 c).arrAt 5 cfg0.N = outArr m c :=
  (dats m 0 c).arrAt_eq_of_cover 5 (outArr m c) (fun t _ => flushed_eq m c t) fun i => by
    have hN : cfg0.N = 100 := N_0
    have hi0 : (i 0).val < 200000 := (i 0).isLt
    have hi1 : (i 1).val < 64 := (i 1).isLt
    obtain ⟨t, ht⟩ : ∃ t : Fin cfg0.N, t.val = (i 0).val / 2000 := ⟨⟨(i 0).val / 2000, by omega⟩, rfl⟩
    obtain ⟨-, -, -, -, -, -, -, -, -, -, -, e50, e51⟩ := idx_facts t
    refine ⟨t, flush0_5 t, ?_⟩
    rw [mem_blk]
    intro a
    match a with
    | ⟨0, _⟩ =>
      show win0_5.index t (0 : Fin 2) * 2000 ≤ (i 0).val ∧ (i 0).val < win0_5.index t (0 : Fin 2) * 2000 + 2000
      rw [e50, ht]; omega
    | ⟨1, _⟩ =>
      show win0_5.index t (1 : Fin 2) * 64 ≤ (i 1).val ∧ (i 1).val < win0_5.index t (1 : Fin 2) * 64 + 64
      rw [e51]; omega

/-- The normalization of what the region finds, in terms of the launch memory. -/
theorem outArr_eq (c : Dev nD) :
    outArr m c
      = normSumArr (siteRows (F := Ideal) (m ((c : Thread nD τ).loc main_arg0)) (m ((c : Thread nD τ).loc main_arg5)))
          (m ((c : Thread nD τ).loc main_arg1) : FVec Ideal S64x64 .f32)
          (fun o => (m ((c : Thread nD τ).loc main_arg2) : FVec Ideal S64 .f32) (ix1 o))
          (fun o => (m ((c : Thread nD τ).loc main_arg3) : FVec Ideal S64 .f32) (ix1 o))
          (fun o => (m ((c : Thread nD τ).loc main_arg4) : FVec Ideal S64 .f32) (ix1 o)) := by
  have e1 : (V m c main_arg1 : FVec Ideal S64x64 .f32) = m ((c : Thread nD τ).loc main_arg1) := V_main_arg1 m c
  have e2 : (fun o : Fin 64 => (V m c main_v8 : FVec Ideal S1x64 .f32) (ix2 (0 : Fin 1) o))
      = fun o => (m ((c : Thread nD τ).loc main_arg2) : FVec Ideal S64 .f32) (ix1 o) :=
    funext fun o => by rw [V_bias]; exact row_read _ o
  have e3 : (fun o : Fin 64 => (V m c main_v9 : FVec Ideal S1x64 .f32) (ix2 (0 : Fin 1) o))
      = fun o => (m ((c : Thread nD τ).loc main_arg3) : FVec Ideal S64 .f32) (ix1 o) :=
    funext fun o => by rw [V_scale]; exact row_read _ o
  have e4 : (fun o : Fin 64 => (V m c main_v10 : FVec Ideal S1x64 .f32) (ix2 (0 : Fin 1) o))
      = fun o => (m ((c : Thread nD τ).loc main_arg4) : FVec Ideal S64 .f32) (ix1 o) :=
    funext fun o => by rw [V_shift]; exact row_read _ o
  show normSumArr _ _ _ _ _ = _
  rw [V_rows, e1, e2, e3, e4]

/-- The run, read: the result array at the normalization of the gathered rows, the arguments unchanged. -/
theorem run : θ_run defs (onTc (τ := τ) (main (F := Ideal))) ⟨m, fun _ => 0, ρ⟩ fun r => ∀ c : Dev nD,
      r.2.mem ((c : Thread nD τ).loc main_v11)
        = normSumArr (siteRows (F := Ideal) (m ((c : Thread nD τ).loc main_arg0)) (m ((c : Thread nD τ).loc main_arg5)))
            (m ((c : Thread nD τ).loc main_arg1) : FVec Ideal S64x64 .f32)
            (fun o => (m ((c : Thread nD τ).loc main_arg2) : FVec Ideal S64 .f32) (ix1 o))
            (fun o => (m ((c : Thread nD τ).loc main_arg3) : FVec Ideal S64 .f32) (ix1 o))
            (fun o => (m ((c : Thread nD τ).loc main_arg4) : FVec Ideal S64 .f32) (ix1 o))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (outArr_eq m c)), (h c).2⟩)
    (run_blocks m ρ)

end Cert.KernelIdeal.Hand

end
-- ==== Proof.RefTerm.lean ====
/-
  The reference's result as one term of its six arguments, named stage by stage.

  a0 : the node feature table [200000, 32];  a5 : twelve neighbour indices per node [200000, 12];
  a1 : the weights [64, 64];  a2, a3, a4 : bias, scale and shift over the 64 output features.
-/
import proofs.«153205_j20847771255045_1_alg».proof.Proof.Gen.ReferenceIdeal

noncomputable section

namespace Cert.ReferenceIdeal.Hand

open Cert.ReferenceIdeal Cert.ReferenceIdeal.Gen Idealize.ShloMosaic

variable {F : FTy → Type} [FloatOps F]

/-- Negative indices wrapped by the table's length, every node's twelve neighbour rows of 32 features gathered, and
    the twelve rows regrouped as six rows of 64. -/
def siteRows (a0 : FVec F S200000x32 .f32) (a5 : IVec S200000x12 32) : FVec F S200000x6x64 .f32 :=
  shapeCast S200000x6x64
    (Host.gather gather_S200000x32_S200000x12x1_S200000x12x32_2_0_n_n_0_2_132 a0
      (broadcastInDim S200000x12x1 ![0, 1] bcast_S200000x12_S200000x12x1_0_1
        (select (cmpi .slt a5 (broadcastInDim S200000x12 ![] bcast_S_S200000x12 (constantI S_ 32 0#32)))
          (addi a5 (broadcastInDim S200000x12 ![] bcast_S_S200000x12 (constantI S_ 32 200000#32))) a5)))
    shapeCasts_S200000x12x32_S200000x6x64

/-- The linear layer on every slot: the rows against the weights' input axis, plus the bias along the output axis. -/
def linOut (X : FVec F S200000x6x64 .f32) (W : FVec F S64x64 .f32) (b : FVec F S64 .f32) : FVec F S200000x6x64 .f32 :=
  addf (Host.dotGeneral dot_S200000x6x64_S64x64_S200000x6x64_2_1_01_0_n_n none X W)
    (broadcastInDim S200000x6x64 ![0, 1, 2] bcast_S1x1x64_S200000x6x64_0_1_2
      (broadcastInDim S1x1x64 ![2] bcast_S64_S1x1x64_2 b))

/-- The sum over the six slots, kept as a column. -/
def slotSum (Y : FVec F S200000x6x64 .f32) : FVec F S200000x1x64 .f32 :=
  broadcastInDim S200000x1x64 ![0, 2] bcast_S200000x64_S200000x1x64_0_2
    (Host.reduceAdd Y (constant S_ .f32 0x00000000#32) reducesTo_S200000x6x64_S200000x64_d1 h_S_)

/-- The mean over the six slots, kept as a column. -/
def meanCol (Y : FVec F S200000x6x64 .f32) : FVec F S200000x1x64 .f32 :=
  Host.divf (slotSum Y) (broadcastInDim S200000x1x64 ![] bcast_S_S200000x1x64 (constant S_ .f32 0x40C00000#32))

/-- The deviations from the mean. -/
def devs (Y : FVec F S200000x6x64 .f32) : FVec F S200000x6x64 .f32 :=
  subf Y (broadcastInDim S200000x6x64 ![0, 1, 2] bcast_S200000x1x64_S200000x6x64_0_1_2 (meanCol Y))

/-- The variance's divisor as the reference writes it: six less the converted integer zero of "no correction". -/
def varDivisor : FVec F S_ .f32 :=
  subf (constant S_ .f32 0x40C00000#32) (sitofp .f32 (constantI S_ 32 0#32))

/-- The variance over the six slots, kept as a column: the mean of the squared deviations where the divisor is
    positive, the literal 0x7FC00000 elsewhere. -/
def varCol (Y : FVec F S200000x6x64 .f32) : FVec F S200000x1x64 .f32 :=
  select (broadcastInDim S200000x1x64 ![] bcast_S_S200000x1x64 (cmpf .ogt (varDivisor (F := F)) (constant S_ .f32 0x00000000#32)))
    (Host.divf (slotSum (mulf (devs Y) (devs Y))) (broadcastInDim S200000x1x64 ![] bcast_S_S200000x1x64 (varDivisor (F := F))))
    (broadcastInDim S200000x1x64 ![] bcast_S_S200000x1x64 (id (constant S_ .f32 0x7FC00000#32)))

/-- One over the square root of the variance plus the offset, kept as a column. -/
def invStd (Y : FVec F S200000x6x64 .f32) : FVec F S200000x1x64 .f32 :=
  Host.rsqrt (addf (varCol Y) (broadcastInDim S200000x1x64 ![] bcast_S_S200000x1x64 (constant S_ .f32 0x3727C5AC#32)))

/-- Normalized, scaled, shifted and summed over the six slots. -/
def normOut (Y : FVec F S200000x6x64 .f32) (g be : FVec F S64 .f32) : FVec F S200000x64 .f32 :=
  Host.reduceAdd
    (addf
      (mulf (mulf (devs Y) (broadcastInDim S200000x6x64 ![0, 1, 2] bcast_S200000x1x64_S200000x6x64_0_1_2 (invStd Y)))
        (broadcastInDim S200000x6x64 ![0, 1, 2] bcast_S1x1x64_S200000x6x64_0_1_2 (broadcastInDim S1x1x64 ![2] bcast_S64_S1x1x64_2 g)))
      (broadcastInDim S200000x6x64 ![0, 1, 2] bcast_S1x1x64_S200000x6x64_0_1_2 (broadcastInDim S1x1x64 ![2] bcast_S64_S1x1x64_2 be)))
    (constant S_ .f32 0x00000000#32) reducesTo_S200000x6x64_S200000x64_d1 h_S_

/-- The reference's result. -/
def refOut (a0 : FVec F S200000x32 .f32) (a1 : FVec F S64x64 .f32) (a2 a3 a4 : FVec F S64 .f32) (a5 : IVec S200000x12 32) :
    FVec F S200000x64 .f32 :=
  normOut (linOut (siteRows a0 a5) a1 a2) a3 a4

end Cert.ReferenceIdeal.Hand

end
-- ==== Proof.RefRun.lean ====
/-
  The reference program's run: from any launch memory every weakly fair execution of its @main terminates with the
  result buffer at the composed term of the arguments (Proof/RefTerm.lean's refOut) and the arguments unchanged.

  @main is a straight line of sixty tensor operations once its one call (the variance, which itself calls the
  select-with-scalar helper) is read as the callee's operations over the call's own buffers.  The contents of a
  buffer after the line are the fold of the operations' results over the launch contents; read at the result
  buffer the fold is the composed term, and at an argument buffer, which no operation writes, it is the launch
  contents.
-/
import proofs.«153205_j20847771255045_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's sixty operations in order, the call unfolded: twenty-one of @main's own (the wrapped indices, the
    gather, the regrouping, the linear layer, the mean over the slots, the integer zero the variance takes), the
    variance's twenty over the call's buffers (its own mean and deviations, their squares summed, the divisor, the
    comparison, the literal for the other branch), the select helper's three (the literal converted to its own type,
    broadcast, the select, whose result is the call's), then @main's last sixteen (the deviations, the reciprocal
    root, scale, shift and the sum over the slots). -/
abbrev ops : List (HloOp τ sig (Elt F)) :=
  [ nullary main_c (constantI S_ 32 0#32),
    unary main_c main_v0 (broadcastInDim S200000x12 ![] bcast_S_S200000x12 : (⟨S_, .i32⟩ : BufTy).Contents (Elt F) → (⟨S200000x12, .i32⟩ : BufTy).Contents (Elt F)),
    binary main_arg5 main_v0 main_v1 (cmpi .slt : (⟨S200000x12, .i32⟩ : BufTy).Contents (Elt F) → (⟨S200000x12, .i32⟩ : BufTy).Contents (Elt F) → (⟨S200000x12, .i1⟩ : BufTy).Contents (Elt F)),
    nullary main_c_0 (constantI S_ 32 200000#32),
    unary main_c_0 main_v2 (broadcastInDim S200000x12 ![] bcast_S_S200000x12 : (⟨S_, .i32⟩ : BufTy).Contents (Elt F) → (⟨S200000x12, .i32⟩ : BufTy).Contents (Elt F)),
    binary main_arg5 main_v2 main_v3 (addi : (⟨S200000x12, .i32⟩ : BufTy).Contents (Elt F) → (⟨S200000x12, .i32⟩ : BufTy).Contents (Elt F) → (⟨S200000x12, .i32⟩ : BufTy).Contents (Elt F)),
    ternary main_v1 main_v3 main_arg5 main_v4 (select : (⟨S200000x12, .i1⟩ : BufTy).Contents (Elt F) → (⟨S200000x12, .i32⟩ : BufTy).Contents (Elt F) → (⟨S200000x12, .i32⟩ : BufTy).Contents (Elt F) → (⟨S200000x12, .i32⟩ : BufTy).Contents (Elt F)),
    unary main_v4 main_v5 (broadcastInDim S200000x12x1 ![0, 1] bcast_S200000x12_S200000x12x1_0_1 : (⟨S200000x12, .i32⟩ : BufTy).Contents (Elt F) → (⟨S200000x12x1, .i32⟩ : BufTy).Contents (Elt F)),
    binary main_arg0 main_v5 main_v6 ((fun x i => Host.gather gather_S200000x32_S200000x12x1_S200000x12x32_2_0_n_n_0_2_132 x i) : (⟨S200000x32, .f32⟩ : BufTy).Contents (Elt F) → (⟨S200000x12x1, .i32⟩ : BufTy).Contents (Elt F) → (⟨S200000x12x32, .f32⟩ : BufTy).Contents (Elt F)),
    reshape main_v6 main_v7 rfl shapeCasts_S200000x12x32_S200000x6x64,
    binary main_v7 main_arg1 main_v8 ((fun l r => Host.dotGeneral dot_S200000x6x64_S64x64_S200000x6x64_2_1_01_0_n_n none l r) : (⟨S200000x6x64, .f32⟩ : BufTy).Contents (Elt F) → (⟨S64x64, .f32⟩ : BufTy).Contents (Elt F) → (⟨S200000x6x64, .f32⟩ : BufTy).Contents (Elt F)),
    unary main_arg2 main_v9 (broadcastInDim S1x1x64 ![2] bcast_S64_S1x1x64_2 : (⟨S64, .f32⟩ : BufTy).Contents (Elt F) → (⟨S1x1x64, .f32⟩ : BufTy).Contents (Elt F)),
    unary main_v9 main_v10 (broadcastInDim S200000x6x64 ![0, 1, 2] bcast_S1x1x64_S200000x6x64_0_1_2 : (⟨S1x1x64, .f32⟩ : BufTy).Contents (Elt F) → (⟨S200000x6x64, .f32⟩ : BufTy).Contents (Elt F)),
    binary main_v8 main_v10 main_v11 (addf : (⟨S200000x6x64, .f32⟩ : BufTy).Contents (Elt F) → (⟨S200000x6x64, .f32⟩ : BufTy).Contents (Elt F) → (⟨S200000x6x64, .f32⟩ : BufTy).Contents (Elt F)),
    nullary main_cst (constant S_ .f32 0x00000000#32),
    binary main_v11 main_cst main_v12 ((fun x v => Host.reduceAdd x v reducesTo_S200000x6x64_S200000x64_d1 h_S_) : (⟨S200000x6x64, .f32⟩ : BufTy).Contents (Elt F) → (⟨S_, .f32⟩ : BufTy).Contents (Elt F) → (⟨S200000x64, .f32⟩ : BufTy).Contents (Elt F)),
    unary main_v12 main_v13 (broadcastInDim S200000x1x64 ![0, 2] bcast_S200000x64_S200000x1x64_0_2 : (⟨S200000x64, .f32⟩ : BufTy).Contents (Elt F) → (⟨S200000x1x64, .f32⟩ : BufTy).Contents (Elt F)),
    nullary main_cst_1 (constant S_ .f32 0x40C00000#32),
    unary main_cst_1 main_v14 (broadcastInDim S200000x1x64 ![] bcast_S_S200000x1x64 : (⟨S_, .f32⟩ : BufTy).Contents (Elt F) → (⟨S200000x1x64, .f32⟩ : BufTy).Contents (Elt F)),
    binary main_v13 main_v14 main_v15 (Host.divf : (⟨S200000x1x64, .f32⟩ : BufTy).Contents (Elt F) → (⟨S200000x1x64, .f32⟩ : BufTy).Contents (Elt F) → (⟨S200000x1x64, .f32⟩ : BufTy).Contents (Elt F)),
    nullary main_c_2 (constantI S_ 32 0#32),
    TRef.nullary main_call0.cst (constant S_ .f32 0x00000000#32),
    TRef.binary (.of main_v11 : TRef sig ⟨S200000x6x64, .f32⟩) main_call0.cst main_call0.v0 (fun x v => Host.reduceAdd x v reducesTo_S200000x6x64_S200000x64_d1 h_S_),
    TRef.unary main_call0.v0 main_call0.v1 (broadcastInDim S200000x1x64 ![0, 2] bcast_S200000x64_S200000x1x64_0_2),
    TRef.nullary main_call0.cst_0 (constant S_ .f32 0x40C00000#32),
    TRef.unary main_call0.cst_0 main_call0.v2 (broadcastInDim S200000x1x64 ![] bcast_S_S200000x1x64),
    TRef.binary main_call0.v1 main_call0.v2 main_call0.v3 Host.divf,
    TRef.unary main_call0.v3 main_call0.v4 (broadcastInDim S200000x6x64 ![0, 1, 2] bcast_S200000x1x64_S200000x6x64_0_1_2),
    TRef.binary (.of main_v11 : TRef sig ⟨S200000x6x64, .f32⟩) main_call0.v4 main_call0.v5 subf,
    TRef.binary main_call0.v5 main_call0.v5 main_call0.v6 mulf,
    TRef.unary (.of main_c_2 : TRef sig ⟨S_, .i32⟩) main_call0.v7 (sitofp .f32),
    TRef.nullary main_call0.cst_1 (constant S_ .f32 0x40C00000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S200000x6x64_S200000x64_d1 h_S_),
    TRef.unary main_call0.v9 main_call0.v10 (broadcastInDim S200000x1x64 ![0, 2] bcast_S200000x64_S200000x1x64_0_2),
    TRef.unary main_call0.v8 main_call0.v11 (broadcastInDim S200000x1x64 ![] bcast_S_S200000x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S200000x1x64 ![] bcast_S_S200000x1x64),
    TRef.ternary main_call0.v13 main_call0.v12 main_call0.call0.v1 main_call0.call0.v2 (fun p a b => select (broadcastInDim S200000x1x64 ![] bcast_S_S200000x1x64 p) a b),
    unary main_v15 main_v17 (broadcastInDim S200000x6x64 ![0, 1, 2] bcast_S200000x1x64_S200000x6x64_0_1_2 : (⟨S200000x1x64, .f32⟩ : BufTy).Contents (Elt F) → (⟨S200000x6x64, .f32⟩ : BufTy).Contents (Elt F)),
    binary main_v11 main_v17 main_v18 (subf : (⟨S200000x6x64, .f32⟩ : BufTy).Contents (Elt F) → (⟨S200000x6x64, .f32⟩ : BufTy).Contents (Elt F) → (⟨S200000x6x64, .f32⟩ : BufTy).Contents (Elt F)),
    nullary main_cst_3 (constant S_ .f32 0x3727C5AC#32),
    unary main_cst_3 main_v19 (broadcastInDim S200000x1x64 ![] bcast_S_S200000x1x64 : (⟨S_, .f32⟩ : BufTy).Contents (Elt F) → (⟨S200000x1x64, .f32⟩ : BufTy).Contents (Elt F)),
    binary main_v16 main_v19 main_v20 (addf : (⟨S200000x1x64, .f32⟩ : BufTy).Contents (Elt F) → (⟨S200000x1x64, .f32⟩ : BufTy).Contents (Elt F) → (⟨S200000x1x64, .f32⟩ : BufTy).Contents (Elt F)),
    unary main_v20 main_v21 (Host.rsqrt : (⟨S200000x1x64, .f32⟩ : BufTy).Contents (Elt F) → (⟨S200000x1x64, .f32⟩ : BufTy).Contents (Elt F)),
    unary main_v21 main_v22 (broadcastInDim S200000x6x64 ![0, 1, 2] bcast_S200000x1x64_S200000x6x64_0_1_2 : (⟨S200000x1x64, .f32⟩ : BufTy).Contents (Elt F) → (⟨S200000x6x64, .f32⟩ : BufTy).Contents (Elt F)),
    binary main_v18 main_v22 main_v23 (mulf : (⟨S200000x6x64, .f32⟩ : BufTy).Contents (Elt F) → (⟨S200000x6x64, .f32⟩ : BufTy).Contents (Elt F) → (⟨S200000x6x64, .f32⟩ : BufTy).Contents (Elt F)),
    unary main_arg3 main_v24 (broadcastInDim S1x1x64 ![2] bcast_S64_S1x1x64_2 : (⟨S64, .f32⟩ : BufTy).Contents (Elt F) → (⟨S1x1x64, .f32⟩ : BufTy).Contents (Elt F)),
    unary main_v24 main_v25 (broadcastInDim S200000x6x64 ![0, 1, 2] bcast_S1x1x64_S200000x6x64_0_1_2 : (⟨S1x1x64, .f32⟩ : BufTy).Contents (Elt F) → (⟨S200000x6x64, .f32⟩ : BufTy).Contents (Elt F)),
    binary main_v23 main_v25 main_v26 (mulf : (⟨S200000x6x64, .f32⟩ : BufTy).Contents (Elt F) → (⟨S200000x6x64, .f32⟩ : BufTy).Contents (Elt F) → (⟨S200000x6x64, .f32⟩ : BufTy).Contents (Elt F)),
    unary main_arg4 main_v27 (broadcastInDim S1x1x64 ![2] bcast_S64_S1x1x64_2 : (⟨S64, .f32⟩ : BufTy).Contents (Elt F) → (⟨S1x1x64, .f32⟩ : BufTy).Contents (Elt F)),
    unary main_v27 main_v28 (broadcastInDim S200000x6x64 ![0, 1, 2] bcast_S1x1x64_S200000x6x64_0_1_2 : (⟨S1x1x64, .f32⟩ : BufTy).Contents (Elt F) → (⟨S200000x6x64, .f32⟩ : BufTy).Contents (Elt F)),
    binary main_v26 main_v28 main_v29 (addf : (⟨S200000x6x64, .f32⟩ : BufTy).Contents (Elt F) → (⟨S200000x6x64, .f32⟩ : BufTy).Contents (Elt F) → (⟨S200000x6x64, .f32⟩ : BufTy).Contents (Elt F)),
    nullary main_cst_4 (constant S_ .f32 0x00000000#32),
    binary main_v29 main_cst_4 main_v30 ((fun x v => Host.reduceAdd x v reducesTo_S200000x6x64_S200000x64_d1 h_S_) : (⟨S200000x6x64, .f32⟩ : BufTy).Contents (Elt F) → (⟨S_, .f32⟩ : BufTy).Contents (Elt F) → (⟨S200000x64, .f32⟩ : BufTy).Contents (Elt F)) ]

-- sixty binds re-associated: the rewrite under the chain recurses once per statement
set_option maxRecDepth 1024 in
/-- @main is that straight line: the two functions unfolded at their calls and the records at their fields, both
    sides are one chain of steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., binary_bufs_sub ..⟩

attribute [local irreducible] Host.reduceAdd Host.gather in
set_option maxRecDepth 8192 in
set_option maxHeartbeats 400000 in
/-- The fold read at the result buffer is the composed term: each operation's result decides whether the buffer
    read is the one it writes, and the typed references' transports are the identity at these literal references. -/
theorem out_eq (V : Valuation τ sig (Elt F)) :
    after ops V (main_v30 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

/-! No operation writes an argument buffer: read there, every operation's result is what was there before. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

/-- On every device, for any float values, from any memory with zero counters: every weakly fair execution of
    @main terminates with the result buffer at the composed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c main_v30).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.Hand

end
-- ==== Proof.RefValue.lean ====
/-
  The reference's composed term, read on the extended reals, is the column-wise normalization of Proof/PermNorm.lean
  applied to the gathered rows.

  Every stage of the term is read at one index, outermost operation first: a sum over the slot axis is the sum of
  the six entries of a column (its initial value is zero), a broadcast reads its operand at the coordinates it keeps,
  the contraction over the feature axis is a sum over 64 products, and the pointwise operations act entry by entry.
  The variance's divisor is six less zero, which is six and positive, so the guarded division takes its first branch.
  Only 0 + x = x and x − 0 = x are used of the arithmetic, so no entry needs to be finite.
-/
import proofs.«153205_j20847771255045_1_alg».proof.Proof.RefTerm
import proofs.«153205_j20847771255045_1_alg».proof.Proof.PermNorm
import Idealize.ShloMosaic.Lib.Pipeline.Value
import Idealize.ShloMosaic.Lib.ValueIdx
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.ValueIdx

/-! ## The layout operations at an index -/

/-- The sum over the slot axis from the zero initial value: at (n, o) the sum of the six entries (n, ·, o). -/
theorem reduceSlots_apply (Y : FVec Ideal S200000x6x64 .f32) (n : Fin 200000) (o : Fin 64) :
    Host.reduceAdd (F := Ideal) Y (constant S_ .f32 0x00000000#32) reducesTo_S200000x6x64_S200000x64_d1 h_S_ (ix2 n o)
      = ∑ p : Fin 6, Y (ix3 n p o) := by
  have hR : S200000x6x64.Reduces [1] S200000x64 := by decide
  show Ideal.hostReduceAdd reducesTo_S200000x6x64_S200000x64_d1 Y _ (ix2 n o) = _
  rw [Ideal.hostReduceAdd_single reducesTo_S200000x6x64_S200000x64_d1 hR]
  show Ideal.ofBits .f32 0x00000000#32 + _ = _
  rw [Ideal.ofBits_zero_f32, zero_add]
  refine Finset.sum_congr rfl fun p _ => congrArg Y ?_
  funext a
  match a with
  | ⟨0, _⟩ => exact Fin.ext rfl
  | ⟨1, _⟩ => exact Fin.ext rfl
  | ⟨2, _⟩ => exact Fin.ext rfl

/-- A result of the slot sum kept as a column: at (n, 0, o) it is the entry (n, o). -/
theorem keepCol_apply {α : Type} (c : S200000x64.Idx → α) (n : Fin 200000) (q : Fin 1) (o : Fin 64) :
    broadcastInDim S200000x1x64 ![0, 2] bcast_S200000x64_S200000x1x64_0_2 c (ix3 n q o) = c (ix2 n o) := by
  refine broadcastInDim_apply _ _ _ _ _ ?_
  intro a
  match a with
  | ⟨0, _⟩ => rfl
  | ⟨1, _⟩ => rfl

/-- A column laid along the six slots: at (n, p, o) it is the column's entry (n, 0, o). -/
theorem alongSlots_apply {α : Type} (c : S200000x1x64.Idx → α) (n : Fin 200000) (p : Fin 6) (o : Fin 64) :
    broadcastInDim S200000x6x64 ![0, 1, 2] bcast_S200000x1x64_S200000x6x64_0_1_2 c (ix3 n p o) = c (ix3 n (0 : Fin 1) o) := by
  refine broadcastInDim_apply _ _ _ _ _ ?_
  intro a
  match a with
  | ⟨0, _⟩ => rfl
  | ⟨1, _⟩ => rfl
  | ⟨2, _⟩ => rfl

/-- A vector over the output features laid along every node and slot: at (n, p, o) it is the vector's entry o. -/
theorem alongFeatures_apply {α : Type} (v : S64.Idx → α) (n : Fin 200000) (p : Fin 6) (o : Fin 64) :
    broadcastInDim S200000x6x64 ![0, 1, 2] bcast_S1x1x64_S200000x6x64_0_1_2
      (broadcastInDim S1x1x64 ![2] bcast_S64_S1x1x64_2 v) (ix3 n p o) = v (ix1 o) := by
  refine (broadcastInDim_apply _ _ _ _ (ix3 (0 : Fin 1) (0 : Fin 1) o) ?_).trans (broadcastInDim_apply _ _ _ _ _ ?_)
  · intro a
    match a with
    | ⟨0, _⟩ => rfl
    | ⟨1, _⟩ => rfl
    | ⟨2, _⟩ => rfl
  · intro a
    match a with
    | ⟨0, _⟩ => rfl

/-! ## The contraction at an index -/

/-- The contraction's left operand index: the node and slot of the result, the contraction position on the features. -/
theorem dot_lhs_0 (j : S200000x6x64.Idx) (k : dot_S200000x6x64_S64x64_S200000x6x64_2_1_01_0_n_n.contr.Idx) :
    (dot_S200000x6x64_S64x64_S200000x6x64_2_1_01_0_n_n.lhsIdx j k 0).val = (j 0).val := rfl
theorem dot_lhs_1 (j : S200000x6x64.Idx) (k : dot_S200000x6x64_S64x64_S200000x6x64_2_1_01_0_n_n.contr.Idx) :
    (dot_S200000x6x64_S64x64_S200000x6x64_2_1_01_0_n_n.lhsIdx j k 1).val = (j 1).val := rfl
theorem dot_lhs_2 (j : S200000x6x64.Idx) (k : dot_S200000x6x64_S64x64_S200000x6x64_2_1_01_0_n_n.contr.Idx) :
    (dot_S200000x6x64_S64x64_S200000x6x64_2_1_01_0_n_n.lhsIdx j k 2).val = (k ⟨0, by decide⟩).val :=
  DotDims.lhsIdx_val_of_single _ rfl j k
/-- The right operand index: the output feature of the result, the contraction position on the input features. -/
theorem dot_rhs_0 (j : S200000x6x64.Idx) (k : dot_S200000x6x64_S64x64_S200000x6x64_2_1_01_0_n_n.contr.Idx) :
    (dot_S200000x6x64_S64x64_S200000x6x64_2_1_01_0_n_n.rhsIdx j k 0).val = (j 2).val := rfl
theorem dot_rhs_1 (j : S200000x6x64.Idx) (k : dot_S200000x6x64_S64x64_S200000x6x64_2_1_01_0_n_n.contr.Idx) :
    (dot_S200000x6x64_S64x64_S200000x6x64_2_1_01_0_n_n.rhsIdx j k 1).val = (k ⟨0, by decide⟩).val :=
  DotDims.rhsIdx_val_of_single _ rfl j k

/-- The contraction of the rows' feature axis with the weights' input axis: at (n, p, o) the sum over the 64 input
    features of the row's entry times the weight's. -/
theorem dot_apply (X : FVec Ideal S200000x6x64 .f32) (W : FVec Ideal S64x64 .f32) (n : Fin 200000) (p : Fin 6) (o : Fin 64) :
    Host.dotGeneral (F := Ideal) dot_S200000x6x64_S64x64_S200000x6x64_2_1_01_0_n_n none X W (ix3 n p o)
      = ∑ k : Fin 64, X (ix3 n p k) * W (ix2 o k) := by
  simp only [Host.dotGeneral]
  rw [Ideal.dotGeneral_apply,
    ← Equiv.sum_comp (contrEquiv1 dot_S200000x6x64_S64x64_S200000x6x64_2_1_01_0_n_n 64 rfl rfl).symm]
  refine Finset.sum_congr rfl fun k _ => ?_
  have hk := contrEquiv1_symm_val dot_S200000x6x64_S64x64_S200000x6x64_2_1_01_0_n_n 64 rfl rfl k
  congr 1
  · refine congrArg X (funext fun a => Fin.ext ?_)
    match a with
    | ⟨0, _⟩ => exact dot_lhs_0 _ _
    | ⟨1, _⟩ => exact dot_lhs_1 _ _
    | ⟨2, _⟩ => exact (dot_lhs_2 _ _).trans hk
  · refine congrArg W (funext fun a => Fin.ext ?_)
    match a with
    | ⟨0, _⟩ => exact dot_rhs_0 _ _
    | ⟨1, _⟩ => exact (dot_rhs_1 _ _).trans hk

/-! ## The stages at an index -/

open Cert.PermNorm

/-- The linear layer at (n, p, o): the row against the weights' row o, plus the bias at o. -/
theorem linOut_apply (X : FVec Ideal S200000x6x64 .f32) (W : FVec Ideal S64x64 .f32) (b : FVec Ideal S64 .f32)
    (n : Fin 200000) (p : Fin 6) (o : Fin 64) :
    linOut (F := Ideal) X W b (ix3 n p o) = lin (fun k => X (ix3 n p k)) (fun k => W (ix2 o k)) (b (ix1 o)) := by
  unfold linOut lin
  refine (addf_apply _ _ _).trans ?_
  rw [dot_apply, alongFeatures_apply]

/-- The sum over the six slots, kept as a column, at (n, 0, o). -/
theorem slotSum_apply (Y : FVec Ideal S200000x6x64 .f32) (n : Fin 200000) (q : Fin 1) (o : Fin 64) :
    slotSum (F := Ideal) Y (ix3 n q o) = ∑ p : Fin 6, Y (ix3 n p o) := by
  unfold slotSum
  exact (keepCol_apply _ n q o).trans (reduceSlots_apply Y n o)

/-- The mean column at (n, 0, o) is the mean of the column (n, ·, o). -/
theorem meanCol_apply (Y : FVec Ideal S200000x6x64 .f32) (n : Fin 200000) (q : Fin 1) (o : Fin 64) :
    meanCol (F := Ideal) Y (ix3 n q o) = colMean (fun p => Y (ix3 n p o)) := by
  unfold meanCol colMean
  show Ideal.div (slotSum (F := Ideal) Y (ix3 n q o)) six = _
  rw [slotSum_apply]

/-- The deviations at (n, p, o). -/
theorem devs_apply (Y : FVec Ideal S200000x6x64 .f32) (n : Fin 200000) (p : Fin 6) (o : Fin 64) :
    devs (F := Ideal) Y (ix3 n p o) = colDev (fun q => Y (ix3 n q o)) p := by
  unfold devs colDev
  refine (subf_apply _ _ _).trans ?_
  rw [alongSlots_apply, meanCol_apply]

/-- The literal 0x40C00000 is the real six. -/
theorem six_eq : six = ((6 : ℝ) : EReal) := by
  simp [six, Ideal.ofBits, Ideal.ieee, -EReal.coe_mul]; norm_num

/-- Six is positive. -/
theorem six_pos : (0 : EReal) < six := by
  rw [six_eq]; exact EReal.coe_pos.mpr (by norm_num)

/-- The variance's divisor, six less the converted integer zero, is six. -/
theorem varDivisor_apply (i : S_.Idx) : varDivisor (F := Ideal) i = six := by
  unfold varDivisor
  refine (subf_apply _ _ _).trans ?_
  show six - (Scalar.sitofp .f32 0#32 : Ideal .f32) = six
  rw [sitofp_zero]
  exact sub_zero _

/-- The divisor is above zero, so the comparison's bit is set. -/
theorem varDivisor_gt (i : S_.Idx) :
    cmpf .ogt (varDivisor (F := Ideal)) (constant S_ .f32 0x00000000#32) i = 1#1 := by
  refine (cmpf_apply _ _ _ _).trans ?_
  rw [varDivisor_apply]
  show Ideal.cmp .ogt six (Ideal.ofBits .f32 0x00000000#32) = 1#1
  rw [Ideal.ofBits_zero_f32]
  simp only [Ideal.cmp, six_pos, decide_true]
  rfl

/-- The variance column at (n, 0, o) is the biased variance of the column (n, ·, o). -/
theorem varCol_apply (Y : FVec Ideal S200000x6x64 .f32) (n : Fin 200000) (q : Fin 1) (o : Fin 64) :
    varCol (F := Ideal) Y (ix3 n q o) = colVar (fun p => Y (ix3 n p o)) := by
  unfold varCol colVar
  refine (select_apply _ _ _ _).trans ?_
  have hc : broadcastInDim S200000x1x64 ![] bcast_S_S200000x1x64
      (cmpf .ogt (varDivisor (F := Ideal)) (constant S_ .f32 0x00000000#32)) (ix3 n q o) = 1#1 := varDivisor_gt _
  rw [hc, select_one]
  show Ideal.div (slotSum (F := Ideal) (mulf (devs Y) (devs Y)) (ix3 n q o)) (varDivisor (F := Ideal) _) = _
  rw [slotSum_apply, varDivisor_apply]
  refine congrArg (fun t => Ideal.div t six) (Finset.sum_congr rfl fun p _ => ?_)
  refine (mulf_apply _ _ _).trans ?_
  rw [devs_apply]

/-- The inverse standard deviation column at (n, 0, o). -/
theorem invStd_apply (Y : FVec Ideal S200000x6x64 .f32) (n : Fin 200000) (q : Fin 1) (o : Fin 64) :
    invStd (F := Ideal) Y (ix3 n q o) = Ideal.rsqrt (colVar (fun p => Y (ix3 n p o)) + eps) := by
  unfold invStd
  show Ideal.rsqrt (varCol (F := Ideal) Y (ix3 n q o) + eps) = _
  rw [varCol_apply]

/-- The normalized, scaled and shifted entries summed over the slots, at (n, o). -/
theorem normOut_apply (Y : FVec Ideal S200000x6x64 .f32) (g be : FVec Ideal S64 .f32) (n : Fin 200000) (o : Fin 64) :
    normOut (F := Ideal) Y g be (ix2 n o) = colNorm (fun p => Y (ix3 n p o)) (g (ix1 o)) (be (ix1 o)) := by
  unfold normOut colNorm
  rw [reduceSlots_apply]
  refine Finset.sum_congr rfl fun p _ => ?_
  refine (addf_apply _ _ _).trans ?_
  rw [alongFeatures_apply]
  refine congrArg (· + be (ix1 o)) ?_
  refine (mulf_apply _ _ _).trans ?_
  rw [alongFeatures_apply]
  refine congrArg (· * g (ix1 o)) ?_
  refine (mulf_apply _ _ _).trans ?_
  rw [devs_apply, alongSlots_apply, invStd_apply]

/-! ## The whole term -/

/-- Over any rows X: the normalization of the linear layer's output is the specification's array. -/
theorem normOut_linOut_eq (X : FVec Ideal S200000x6x64 .f32) (W : FVec Ideal S64x64 .f32) (b g be : FVec Ideal S64 .f32) :
    normOut (F := Ideal) (linOut X W b) g be
      = normSumArr X W (fun o => b (ix1 o)) (fun o => g (ix1 o)) (fun o => be (ix1 o)) := by
  funext j
  obtain ⟨n, o, rfl⟩ : ∃ (n : Fin 200000) (o : Fin 64), j = ix2 n o := ⟨j 0, j 1, eq_ix2 j⟩
  rw [normSumArr_apply, normOut_apply]
  unfold normSum
  refine congrArg (fun y => colNorm y (g (ix1 o)) (be (ix1 o))) (funext fun p => ?_)
  exact linOut_apply X W b n p o

theorem refOut_eq (a0 : FVec Ideal S200000x32 .f32) (a1 : FVec Ideal S64x64 .f32) (a2 a3 a4 : FVec Ideal S64 .f32)
    (a5 : IVec S200000x12 32) :
    refOut (F := Ideal) a0 a1 a2 a3 a4 a5
      = Cert.PermNorm.normSumArr (siteRows (F := Ideal) a0 a5) a1 (fun o => a2 (ix1 o)) (fun o => a3 (ix1 o)) (fun o => a4 (ix1 o)) := by
  unfold refOut
  exact normOut_linOut_eq (siteRows (F := Ideal) a0 a5) a1 a2 a3 a4

end Cert.ReferenceIdeal.Hand

end
-- ==== Proof.lean ====
/-
  The certificate: a kernel that applies a linear layer to every node's six regrouped neighbour rows, normalizes
  over the six slots and sums them, against the same computation written with array operations.

  Both programs gather the same rows with the same host operations, so the rows enter both sides as one array.
  On the extended reals each side is then the column-wise normalization of Proof/PermNorm.lean: the kernel's
  blocks of 2000 nodes tile the result (Proof/KernelPay.lean, Proof/KernelValue.lean), and the reference's array
  operations read index by index give the same columns (Proof/RefRun.lean, Proof/RefValue.lean). The only
  arithmetic used is 0 + x = x and x − 0 = x (the sums' initial zeros, and the reference's variance divisor
  written as six less a converted integer zero), so no input has to be finite for the two results to agree.
-/
import proofs.«153205_j20847771255045_1_alg».proof.Defs
import proofs.«153205_j20847771255045_1_alg».proof.Proof.Gen.Kernel
import proofs.«153205_j20847771255045_1_alg».proof.Proof.Gen.Kernel.Skeleton
import proofs.«153205_j20847771255045_1_alg».proof.Proof.Gen.Kernel.Launch
import proofs.«153205_j20847771255045_1_alg».proof.Proof.Gen.Kernel.Points
import proofs.«153205_j20847771255045_1_alg».proof.Proof.Gen.Kernel.Frame
import proofs.«153205_j20847771255045_1_alg».proof.Proof.Gen.KernelIdeal
import proofs.«153205_j20847771255045_1_alg».proof.Proof.Gen.KernelIdeal.Skeleton
import proofs.«153205_j20847771255045_1_alg».proof.Proof.Gen.KernelIdeal.Launch
import proofs.«153205_j20847771255045_1_alg».proof.Proof.Gen.KernelIdeal.Points
import proofs.«153205_j20847771255045_1_alg».proof.Proof.Gen.KernelIdeal.Frame
import proofs.«153205_j20847771255045_1_alg».proof.Proof.Gen.KernelIdeal.Value
import proofs.«153205_j20847771255045_1_alg».proof.Proof.Gen.ReferenceIdeal
import proofs.«153205_j20847771255045_1_alg».proof.Proof.Gen.Pre_finite_inputs
import proofs.«153205_j20847771255045_1_alg».proof.Proof.KernelValue
import proofs.«153205_j20847771255045_1_alg».proof.Proof.RefRun
import proofs.«153205_j20847771255045_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The two programs gather and regroup the neighbour rows with the same operations: one array. -/
theorem siteRows_eq (a0 : FVec Ideal Cert.KernelIdeal.S200000x32 .f32) (a5 : IVec Cert.KernelIdeal.S200000x12 32) :
    Cert.ReferenceIdeal.Hand.siteRows (F := Ideal) a0 a5 = Cert.KernelIdeal.Hand.siteRows (F := Ideal) a0 a5 := rfl

/-- From memories that agree on the arguments both programs end with the column-wise normalization of the same
    gathered rows, weights and vectors. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5⟩ := hagree c
  rw [Cert.ReferenceIdeal.Hand.refOut_eq, h0, h1, h2, h3, h4, h5, siteRows_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
